-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x4096x16 : Shape := ⟨3, ![8, 4096, 16]⟩
abbrev S8x16x4096 : Shape := ⟨3, ![8, 16, 4096]⟩
abbrev S4 : Shape := ⟨1, ![4]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v15 : IVec S4 1) (main_c_5 : IVec S_ 1) : IVec S_ 1 :=
  let main_v16 : IVec S_ 1 := (fun x v => Host.reduce IntOp.andi x v reducesTo_S4_S_d0 h_S_) main_v15 main_c_5
  let main_v17 : IVec S_ 1 := andi main_v13 main_v16
  main_v17

def fn {F : FTy → Type} [FloatOps F] (main_arg0 : FVec F S4x2048x4096 .f32) (main_arg1 : FVec F S8x4096x16 .f32) (main_arg2 : FVec F S8x16x4096 .f32) (main_arg3 : IVec S4 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8x4096x16 .f32 := Host.absf main_arg1
  let main_cst_0 : FVec F S_ .f32 := constant S_ .f32 0x7F800000#32
  let main_v5 : FVec F S8x4096x16 .f32 := broadcastInDim S8x4096x16 ![] bcast_S_S8x4096x16 main_cst_0
  let main_v6 : IVec S8x4096x16 1 := cmpf .olt main_v4 main_v5
  let main_c_1 : IVec S_ 1 := constantI S_ 1 1#1
  let main_v7 : IVec S_ 1 := (fun x v => Host.reduce IntOp.andi x v reducesTo_S8x4096x16_S_d0_1_2 h_S_) main_v6 main_c_1
  let main_v8 : IVec S_ 1 := andi main_v3 main_v7
  let main_v9 : FVec F S8x16x4096 .f32 := Host.absf main_arg2
  let main_cst_2 : FVec F S_ .f32 := constant S_ .f32 0x7F800000#32
  let main_v10 : FVec F S8x16x4096 .f32 := broadcastInDim S8x16x4096 ![] bcast_S_S8x16x4096 main_cst_2
  let main_v11 : IVec S8x16x4096 1 := cmpf .olt main_v9 main_v10
  let main_c_3 : IVec S_ 1 := constantI S_ 1 1#1
  let main_v12 : IVec S_ 1 := (fun x v => Host.reduce IntOp.andi x v reducesTo_S8x16x4096_S_d0_1_2 h_S_) main_v11 main_c_3
  let main_v13 : IVec S_ 1 := andi main_v8 main_v12
  let main_c_4 : IVec S_ 32 := constantI S_ 32 0#32
  let main_v14 : IVec S4 32 := broadcastInDim S4 ![] bcast_S_S4 main_c_4
  let main_v15 : IVec S4 1 := cmpi .sge main_arg3 main_v14
  let main_c_5 : IVec S_ 1 := constantI S_ 1 1#1
  fn_part1 (F := F) main_v13 main_v15 main_c_5
-- ==== Kernel.lean ====
abbrev S4x2048x4096 : Shape := ⟨3, ![4, 2048, 4096]⟩
abbrev S8x4096x16 : Shape := ⟨3, ![8, 4096, 16]⟩
abbrev S8x16x4096 : Shape := ⟨3, ![8, 16, 4096]⟩
abbrev S4 : Shape := ⟨1, ![4]⟩
abbrev S_ : Shape := ⟨0, ![]⟩
abbrev S1x256x4096 : Shape := ⟨3, ![1, 256, 4096]⟩
abbrev S1x16x4096 : Shape := ⟨3, ![1, 16, 4096]⟩
abbrev S1 : Shape := ⟨1, ![1]⟩
abbrev S256x4096 : Shape := ⟨2, ![256, 4096]⟩
abbrev S16x4096 : Shape := ⟨2, ![16, 4096]⟩
abbrev S256x16 : Shape := ⟨2, ![256, 16]⟩

abbrev nBuf : Space → Nat
  | .hbm => 15
  | .vmem => 8
  | .smem => 1
  | _ => 0

abbrev bufTy : (tb : Table) → Fin (tcTables nBuf tb) → BufTy
  | .hbm, ⟨0, _⟩ => ⟨S4x2048x4096, .f32⟩
  | .hbm, ⟨1, _⟩ => ⟨S8x4096x16, .f32⟩
  | .hbm, ⟨2, _⟩ => ⟨S8x16x4096, .f32⟩
  | .hbm, ⟨3, _⟩ => ⟨S4, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S8x16x4096, .f32⟩
  | .hbm, ⟨12, _⟩ => ⟨S8x16x4096, .bf16⟩
  | .hbm, ⟨13, _⟩ => ⟨S8x16x4096, .bf16⟩
  | .hbm, ⟨14, _⟩ => ⟨S4x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x16x4096, .bf16⟩
  | .local _ .vmem, ⟨3, _⟩ => ⟨S1x16x4096, .bf16⟩
  | .local _ .vmem, ⟨4, _⟩ => ⟨S1x16x4096, .bf16⟩
  | .local _ .vmem, ⟨5, _⟩ => ⟨S1x16x4096, .bf16⟩
  | .local _ .vmem, ⟨6, _⟩ => ⟨S1x256x4096, .f32⟩
  | .local _ .vmem, ⟨7, _⟩ => ⟨S1x256x4096, .f32⟩
  | .local _ .smem, ⟨0, _⟩ => ⟨S4, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4 : S_.BroadcastsInDim S4 (![] : Fin 0 → Fin S4.rank)
  transposes_S8x4096x16_S8x16x4096_0_2_1 : S8x4096x16.Transposes [0, 2, 1] S8x16x4096
  bitsLt_bf16_f32 : FTy.bits .bf16 < FTy.bits .f32
  numel1_S1 : S1.numel = 1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  shapeCasts_S256x4096_S1x256x4096 : S256x4096.ShapeCasts S1x256x4096
  dot_S256x4096_S16x4096_S256x16_1_1_0_0_n_n_wf : DotDims.WF S256x4096 S16x4096 S256x16 [1] [1] [0] [0] [] []
  dot_S256x16_S16x4096_S256x4096_1_0_0_1_n_n_wf : DotDims.WF S256x16 S16x4096 S256x4096 [1] [0] [0] [1] [] []
  hrank0 : 0 < grid0.rank
  k0_off1_inb : ∀ i : grid0.Coords, ∀ a, (k0_off1 i) a + S1.size a ≤ S4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x2048x4096.size a
  hwx0_0 : ∀ i : grid0.Coords, EltTy.bits .f32 = 32 ∨ (Rect.block (s := S4x2048x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x2048x4096.size a
  hwx0_3 : ∀ i : grid0.Coords, EltTy.bits .f32 = 32 ∨ (Rect.block (s := S4x2048x4096) S1x256x4096.size (cc0_transform_3 i) (hinb0_3 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev spec0_0 : Pipeline.WinSpec sig grid0.rank :=
  Pipeline.WinSpec.ofSpec (Memref.whole main_arg0) S1x256x4096.size reads0_0 false false 2 stage0_0 sem0_0 nbuf0_0 hstage0_0

abbrev spec0_1 : Pipeline.WinSpec sig grid0.rank :=
  Pipeline.WinSpec.ofSpec (Memref.whole main_v3) S1x16x4096.size reads0_1 false false 2 stage0_1 sem0_1 nbuf0_1 hstage0_1

abbrev spec0_2 : Pipeline.WinSpec sig grid0.rank :=
  Pipeline.WinSpec.ofSpec (Memref.whole main_v2) S1x16x4096.size reads0_2 false false 2 stage0_2 sem0_2 nbuf0_2 hstage0_2

abbrev spec0_3 : Pipeline.WinSpec sig grid0.rank :=
  Pipeline.WinSpec.ofSpec (Memref.whole main_v4) S1x256x4096.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x16x4096.size a ≤ S8x16x4096.size a), EltTy.bits .bf16 = 32 ∨ (Rect.block (s := S8x16x4096) S1x16x4096.size (cc0_transform_1 k0_off1_inb numel1_S1 pf i) h).WholeWords (EltTy.packing .bf16)) ∧
  (∀ i : grid0.Coords, ∃ h : (∀ a, (cc0_transform_2 k0_off1_inb numel1_S1 pf i a + 1) * S1x16x4096.size a ≤ S8x16x4096.size a), EltTy.bits .bf16 = 32 ∨ (Rect.block (s := S8x16x4096) S1x16x4096.size (cc0_transform_2 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S4x2048x4096 : Shape := ⟨3, ![4, 2048, 4096]⟩
abbrev S8x4096x16 : Shape := ⟨3, ![8, 4096, 16]⟩
abbrev S8x16x4096 : Shape := ⟨3, ![8, 16, 4096]⟩
abbrev S4 : Shape := ⟨1, ![4]⟩
abbrev S_ : Shape := ⟨0, ![]⟩
abbrev S4x1 : Shape := ⟨2, ![4, 1]⟩
abbrev S4x16x4096 : Shape := ⟨3, ![4, 16, 4096]⟩
abbrev S4x4096x16 : Shape := ⟨3, ![4, 4096, 16]⟩
abbrev S4x2048x16 : Shape := ⟨3, ![4, 2048, 16]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4096x16, .f32⟩
  | .hbm, ⟨2, _⟩ => ⟨S8x16x4096, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S4x16x4096, .f32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4, .i32⟩
  | .hbm, ⟨20, _⟩ => ⟨S4x1, .i32⟩
  | .hbm, ⟨21, _⟩ => ⟨S4x4096x16, .f32⟩
  | .hbm, ⟨22, _⟩ => ⟨S4x2048x16, .f32⟩
  | .hbm, ⟨23, _⟩ => ⟨S4x2048x4096, .f32⟩
  | .hbm, ⟨24, _⟩ => ⟨S_, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S4x2048x4096 : S_.BroadcastsInDim S4x2048x4096 (![] : Fin 0 → Fin S4x2048x4096.rank)
  gather_S8x16x4096_S4x1_S4x16x4096_12_0_n_n_0_1_1164096_wf : GatherDims.WF S8x16x4096 S4x1 S4x16x4096 [1, 2] [0] [] [0] [] 1 ![1, 16, 4096]
  gather_S8x4096x16_S4x1_S4x4096x16_12_0_n_n_0_1_1409616_wf : GatherDims.WF S8x4096x16 S4x1 S4x4096x16 [1, 2] [0] [] [0] [] 1 ![1, 4096, 16]
  dot_S4x2048x4096_S4x16x4096_S4x2048x16_2_2_1_1_0_0_wf : DotDims.WF S4x2048x4096 S4x16x4096 S4x2048x16 [2] [2] [1] [1] [0] [0]
  dot_S4x2048x16_S4x4096x16_S4x2048x4096_2_2_1_1_0_0_wf : DotDims.WF S4x2048x16 S4x4096x16 S4x2048x4096 [2] [2] [1] [1] [0] [0]

variable [Facts₀]

def gather_S8x16x4096_S4x1_S4x16x4096_12_0_n_n_0_1_1164096 : GatherDims S8x16x4096 S4x1 S4x16x4096 where
  offsetDims := [1, 2]
  collapsedSliceDims := [0]
  operandBatchingDims := []
  startIndicesBatchingDims := []
  startIndexMap := [0]
  indexVectorDim := 1
  sliceSizes := ![1, 16, 4096]
  wf := gather_S8x16x4096_S4x1_S4x16x4096_12_0_n_n_0_1_1164096_wf
def gather_S8x4096x16_S4x1_S4x4096x16_12_0_n_n_0_1_1409616 : GatherDims S8x4096x16 S4x1 S4x4096x16 where
  offsetDims := [1, 2]
  collapsedSliceDims := [0]
  operandBatchingDims := []
  startIndicesBatchingDims := []
  startIndexMap := [0]
  indexVectorDim := 1
  sliceSizes := ![1, 4096, 16]
  wf := gather_S8x4096x16_S4x1_S4x4096x16_12_0_n_n_0_1_1409616_wf
def dot_S4x2048x4096_S4x16x4096_S4x2048x16_2_2_1_1_0_0 : DotDims S4x2048x4096 S4x16x4096 S4x2048x16 where
  lhsContracting := [2]
  rhsContracting := [2]
  lhsNonContracting := [1]
  rhsNonContracting := [1]
  lhsBatch := [0]
  rhsBatch := [0]
  wf := dot_S4x2048x4096_S4x16x4096_S4x2048x16_2_2_1_1_0_0_wf
def dot_S4x2048x16_S4x4096x16_S4x2048x4096_2_2_1_1_0_0 : DotDims S4x2048x16 S4x4096x16 S4x2048x4096 where
  lhsContracting := [2]
  rhsContracting := [2]
  lhsNonContracting := [1]
  rhsNonContracting := [1]
  lhsBatch := [0]
  rhsBatch := [0]
  wf := dot_S4x2048x16_S4x4096x16_S4x2048x4096_2_2_1_1_0_0_wf

class Facts : Prop extends Facts₀ where

variable [Facts]
-- ==== Proof.AdapterWord.lean ====
/-
  The adapter index as both programs compute it from one signed 32-bit word `w` of `adapter_ids`.
  The kernel clamps on the host: `min 7 (max 0 w)`, signed. The reference wraps a negative word
  by the extent 8 (`w + 8` when `w < 0`) and its gather then clamps the start, read signed, into
  `0 … 7`. For a word that is signed non-negative neither the wrap nor the lower clamp acts, and
  both sides select adapter `min w 7`.
-/
import Idealize.ShloMosaic.PureOps

namespace Cert.Lora.AdapterWord

open Idealize.ShloMosaic

theorem ofBool_eq_one (b : Bool) : BitVec.ofBool b = 1#1 ↔ b = true := by cases b <;> decide

/-- A one-bit conjunction is set exactly when both bits are. -/
theorem andi_eq_one : ∀ (a b : BitVec 1), IntOp.andi a b = 1#1 ↔ a = 1#1 ∧ b = 1#1 := by decide

/-- Signed non-negative, as the precondition's compare states it, is a clear sign bit. -/
theorem nonneg_iff (w : BitVec 32) : IntOp.cmpi .sge w 0#32 = 1#1 ↔ w.toNat < 2 ^ 31 := by
  unfold IntOp.cmpi
  rw [ofBool_eq_one]
  simp only [BitVec.sle, decide_eq_true_eq]
  have h0 : (0#32 : BitVec 32).toInt = 0 := by decide
  have h32 := w.isLt
  rw [h0, BitVec.toInt_eq_toNat_cond]
  split <;> omega

/-- The signed value of a word with a clear sign bit is its unsigned one. -/
theorem toInt_of_nonneg (w : BitVec 32) (h : w.toNat < 2 ^ 31) : w.toInt = (w.toNat : Int) := by
  rw [BitVec.toInt_eq_toNat_cond, if_pos (by omega)]

/-- The kernel's host clamp `min 7 (max 0 w)` always lands in `0 … 7`. -/
theorem clamp_le (w : BitVec 32) : (IntOp.minsi 7#32 (IntOp.maxsi 0#32 w)).toNat ≤ 7 := by
  unfold IntOp.minsi IntOp.maxsi
  have h7 : (7#32 : BitVec 32).toInt = 7 := by decide
  have h0 : (0#32 : BitVec 32).toInt = 0 := by decide
  have h32 := w.isLt
  by_cases hw : w.slt 0#32 = true
  · rw [if_pos hw]
    have : (7#32 : BitVec 32).slt 0#32 = false := by decide
    rw [this]; decide
  · rw [if_neg hw]
    by_cases h : (7#32 : BitVec 32).slt w = true
    · rw [if_pos h]; decide
    · rw [if_neg h]
      simp only [BitVec.slt, decide_eq_true_eq, h7, h0] at hw h
      rw [BitVec.toInt_eq_toNat_cond] at hw h
      split at h <;> omega

/-- On a non-negative word the kernel's clamp is `min w 7`. -/
theorem clamp_of_nonneg (w : BitVec 32) (h : w.toNat < 2 ^ 31) :
    (IntOp.minsi 7#32 (IntOp.maxsi 0#32 w)).toNat = min w.toNat 7 := by
  unfold IntOp.minsi IntOp.maxsi
  have h7 : (7#32 : BitVec 32).toInt = 7 := by decide
  have h0 : (0#32 : BitVec 32).toInt = 0 := by decide
  have hw : ¬ (w.slt 0#32 = true) := by
    simp only [BitVec.slt, decide_eq_true_eq, h0, toInt_of_nonneg w h]; omega
  rw [if_neg hw]
  by_cases h' : (7#32 : BitVec 32).slt w = true
  · rw [if_pos h']
    simp only [BitVec.slt, decide_eq_true_eq, h7, toInt_of_nonneg w h] at h'
    show 7 = min w.toNat 7
    omega
  · rw [if_neg h']
    simp only [BitVec.slt, decide_eq_true_eq, h7, toInt_of_nonneg w h] at h'
    omega

/-- On a non-negative word the reference's wrap of negative indices is not taken. -/
theorem wrap_of_nonneg (w : BitVec 32) (h : w.toNat < 2 ^ 31) :
    Scalar.select (IntOp.cmpi .slt w 0#32) (IntOp.addi w 8#32) w = w := by
  unfold Scalar.select
  rw [if_neg]
  show ¬ (BitVec.ofBool (w.slt 0#32) = 1#1)
  rw [ofBool_eq_one]
  have h0 : (0#32 : BitVec 32).toInt = 0 := by decide
  simp only [BitVec.slt, decide_eq_true_eq, h0, toInt_of_nonneg w h]; omega

/-- The gather's start, a word read signed and clamped into `0 … 7`, is `min w 7` on a non-negative word. -/
theorem start_of_nonneg (w : BitVec 32) (h : w.toNat < 2 ^ 31) : min w.toInt.toNat 7 = min w.toNat 7 := by
  rw [toInt_of_nonneg w h, Int.toNat_natCast]

end Cert.Lora.AdapterWord
-- ==== Proof.TableBits.lean ====
/-
  The prefetched table of `Kernel`: what the pipeline reads in scalar memory is the host's clamp of
  `adapter_ids`, word by word `min 7 (max 0 id)` signed, so every word names one of the 8 adapters. The two
  windows whose index maps read the table (the selected adapter's [16, 4096] slab of B and of Aᵀ) therefore take
  block `(word, 0, 0)` of an [8, 16, 4096] array: inside it, and whole rows of a slab, hence whole words of the
  packed bf16 layout. This is the pipeline's side condition, for every launch memory.
-/
import proofs.«431242_j54623394070735_3_alg».proof.Proof.Gen.Kernel.Frame
import proofs.«431242_j54623394070735_3_alg».proof.Proof.AdapterWord
import Idealize.ShloMosaic.Lib.StableHlo.Run

set_option maxRecDepth 16384

noncomputable section

namespace Cert.Kernel.Table

open Cert.Kernel Cert.Kernel.Gen
open Idealize.ShloMosaic Idealize.ShloMosaic.TcCoe Idealize.SL.Sem
open Cert.Lora

variable {F : FTy → Type} [FloatOps F]
variable (m : (ℓ : Loc nD τ sig) → Buf (Elt F) ℓ)

/-- The launch contents of `adapter_ids` on the one device. -/
abbrev ids : S4.Idx → BitVec 32 := m (((0 : Dev nD) : Thread nD τ).loc main_arg3)

/-- The table when the region is entered: the host's clamp of `adapter_ids` into `0 … 7`. -/
theorem tbl_eq : (tbl m 0 : S4.Idx → BitVec 32)
    = minsi (broadcastInDim S4 ![] bcast_S_S4 (constantI S_ 32 7#32))
        (maxsi (broadcastInDim S4 ![] bcast_S_S4 (constantI S_ 32 0#32)) (ids m)) := by
  show V m 0 main_v0 = _
  dsimp only [V]
  simp only [hostOps0, hostOps0_1, hostOps0_2, List.flatten_cons, List.flatten_nil, List.append_nil, List.cons_append,
    List.nil_append]
  after_results
  rfl

/-- Word by word. -/
theorem tbl_apply (i : S4.Idx) : tbl m 0 i = IntOp.minsi 7#32 (IntOp.maxsi 0#32 (ids m i)) := by
  rw [tbl_eq]; rfl

/-- Every word of the table is at most 7. -/
theorem tbl_le (i : S4.Idx) : (tbl m 0 i).toNat ≤ 7 := by
  rw [tbl_apply]; exact AdapterWord.clamp_le _

/-- Block `(w, 0, 0)` of an [8, 16, 4096] bf16 array, for `w ≤ 7`, lies inside it and takes whole rows of a slab. -/
theorem slab_ok (ix : Fin 3 → Nat) (w : Nat) (hw : w ≤ 7) (e : ix = ![w, 0, 0]) :
    ∃ h : (∀ a, (ix a + 1) * S1x16x4096.size a ≤ S8x16x4096.size a),
      EltTy.bits .bf16 = 32 ∨ (Rect.block (s := S8x16x4096) S1x16x4096.size ix h).WholeWords (EltTy.packing .bf16) := by
  subst e
  refine ⟨fun a => ?_, Or.inr (Or.inr ⟨by decide, rfl, rfl, rfl⟩)⟩
  fin_cases a <;> simp [S1x16x4096, S8x16x4096] <;> omega

/-- THE PIPELINE'S SIDE CONDITION holds at every launch memory. -/
theorem ok : Ok m := by
  refine ⟨fun i => ?_, fun i => ?_⟩
  · exact slab_ok _ _ (tbl_le m _) rfl
  · exact slab_ok _ _ (tbl_le m _) rfl

end Cert.Kernel.Table

end
-- ==== Proof.TableIdeal.lean ====
/-
  The prefetched table of `KernelIdeal`: what the pipeline reads in scalar memory is the host's clamp of
  `adapter_ids`, word by word `min 7 (max 0 id)` signed, so every word names one of the 8 adapters. The two
  windows whose index maps read the table (the selected adapter's [16, 4096] slab of B and of Aᵀ) therefore take
  block `(word, 0, 0)` of an [8, 16, 4096] array: inside it, and whole rows of a slab, hence whole words of the
  packed bf16 layout. This is the pipeline's side condition, for every launch memory.
-/
import proofs.«431242_j54623394070735_3_alg».proof.Proof.Gen.KernelIdeal.Frame
import proofs.«431242_j54623394070735_3_alg».proof.Proof.AdapterWord
import Idealize.ShloMosaic.Lib.StableHlo.Run

set_option maxRecDepth 16384

noncomputable section

namespace Cert.KernelIdeal.Table

open Cert.KernelIdeal Cert.KernelIdeal.Gen
open Idealize.ShloMosaic Idealize.ShloMosaic.TcCoe Idealize.SL.Sem
open Cert.Lora

variable {F : FTy → Type} [FloatOps F]
variable (m : (ℓ : Loc nD τ sig) → Buf (Elt F) ℓ)

/-- The launch contents of `adapter_ids` on the one device. -/
abbrev ids : S4.Idx → BitVec 32 := m (((0 : Dev nD) : Thread nD τ).loc main_arg3)

/-- The table when the region is entered: the host's clamp of `adapter_ids` into `0 … 7`. -/
theorem tbl_eq : (tbl m 0 : S4.Idx → BitVec 32)
    = minsi (broadcastInDim S4 ![] bcast_S_S4 (constantI S_ 32 7#32))
        (maxsi (broadcastInDim S4 ![] bcast_S_S4 (constantI S_ 32 0#32)) (ids m)) := by
  show V m 0 main_v0 = _
  dsimp only [V]
  simp only [hostOps0, hostOps0_1, hostOps0_2, List.flatten_cons, List.flatten_nil, List.append_nil, List.cons_append,
    List.nil_append]
  after_results
  rfl

/-- Word by word. -/
theorem tbl_apply (i : S4.Idx) : tbl m 0 i = IntOp.minsi 7#32 (IntOp.maxsi 0#32 (ids m i)) := by
  rw [tbl_eq]; rfl

/-- Every word of the table is at most 7. -/
theorem tbl_le (i : S4.Idx) : (tbl m 0 i).toNat ≤ 7 := by
  rw [tbl_apply]; exact AdapterWord.clamp_le _

/-- Block `(w, 0, 0)` of an [8, 16, 4096] bf16 array, for `w ≤ 7`, lies inside it and takes whole rows of a slab. -/
theorem slab_ok (ix : Fin 3 → Nat) (w : Nat) (hw : w ≤ 7) (e : ix = ![w, 0, 0]) :
    ∃ h : (∀ a, (ix a + 1) * S1x16x4096.size a ≤ S8x16x4096.size a),
      EltTy.bits .bf16 = 32 ∨ (Rect.block (s := S8x16x4096) S1x16x4096.size ix h).WholeWords (EltTy.packing .bf16) := by
  subst e
  refine ⟨fun a => ?_, Or.inr (Or.inr ⟨by decide, rfl, rfl, rfl⟩)⟩
  fin_cases a <;> simp [S1x16x4096, S8x16x4096] <;> omega

/-- THE PIPELINE'S SIDE CONDITION holds at every launch memory. -/
theorem ok : Ok m := by
  refine ⟨fun i => ?_, fun i => ?_⟩
  · exact slab_ok _ _ (tbl_le m _) rfl
  · exact slab_ok _ _ (tbl_le m _) rfl

end Cert.KernelIdeal.Table

end
-- ==== Proof.LoraSpec.lean ====
/-
  THE FUNCTION both programs compute, over the extended reals: per batch element b the low-rank update with the
  adapter that `adapter_ids[b]` selects,

      out[b, n, o] = ∑ r < 16, ( ∑ i < 4096, x[b, n, i] · B[a_b, r, i] ) · A[a_b, o, r],     a_b = min(adapter_ids[b], 7),

  the inner sum first and the outer sum over its results: both programs associate the products this way, so no
  law of the extended reals beyond `t · 1 = t` is needed to join them.
-/
import Idealize.ShloMosaic.PureOps.Ideal
import Idealize.ShloMosaic.Lib.ValueIdx

noncomputable section

namespace Cert.Lora

open Idealize.ShloMosaic Idealize.ShloMosaic.ValueIdx

/-- The adapter a (signed non-negative) word selects: itself, held at the last adapter. -/
def adapter (ids : (⟨1, ![4]⟩ : Shape).Idx → BitVec 32) (b : Fin 4) : Fin 8 :=
  ⟨min (ids (ix1 b)).toNat 7, Nat.lt_succ_of_le (Nat.min_le_right _ _)⟩

/-- The down-projection `x Bᵀ` with adapter `a`: entry (b, n, r). -/
def down (x : FVec Ideal ⟨3, ![4, 2048, 4096]⟩ .f32) (B : FVec Ideal ⟨3, ![8, 16, 4096]⟩ .f32)
    (a : Fin 8) (b : Fin 4) (n : Fin 2048) (r : Fin 16) : EReal :=
  ∑ i : Fin 4096, x (ix3 b n i) * B (ix3 a r i)

/-- The low-rank update, entry by entry. -/
def lora (x : FVec Ideal ⟨3, ![4, 2048, 4096]⟩ .f32) (A : FVec Ideal ⟨3, ![8, 4096, 16]⟩ .f32)
    (B : FVec Ideal ⟨3, ![8, 16, 4096]⟩ .f32) (ids : (⟨1, ![4]⟩ : Shape).Idx → BitVec 32) :
    FVec Ideal ⟨3, ![4, 2048, 4096]⟩ .f32 := fun j =>
  ∑ r : Fin 16, down x B (adapter ids (j 0)) (j 0) (j 1) r * A (ix3 (adapter ids (j 0)) (j 2) r)

/-- At explicit coordinates. -/
theorem lora_apply (x : FVec Ideal ⟨3, ![4, 2048, 4096]⟩ .f32) (A : FVec Ideal ⟨3, ![8, 4096, 16]⟩ .f32)
    (B : FVec Ideal ⟨3, ![8, 16, 4096]⟩ .f32) (ids : (⟨1, ![4]⟩ : Shape).Idx → BitVec 32)
    (b : Fin 4) (n : Fin 2048) (o : Fin 4096) :
    lora x A B ids (ix3 b n o) = ∑ r : Fin 16, down x B (adapter ids b) b n r * A (ix3 (adapter ids b) o r) := rfl

end Cert.Lora

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.LibMatmulTransposedRhs.lean ====
/-
  A general lemma, free of any program.

  A `tpu.matmul` of an m×k block by an n×k block, the right operand contracted on its LAST axis (the product
  A · Bᵀ without a transpose being made), accumulated into zero and read at the entry (a, b) at the ideal values,
  is the plain sum over the contracted coordinate c of A(a, c) · B(b, c). Stated for the record
  `DotDims.transposedRhs m k n` and for any record equal to it.
-/
import Idealize.ShloMosaic.PureOps.Ideal.Laws
import Idealize.ShloMosaic.Lib.ValueIdx

noncomputable section

namespace MatmulTransposedRhs

open Idealize.ShloMosaic Idealize.ShloMosaic.ValueIdx

/-- The entry (a, b) of A · Bᵀ accumulated into zero is `∑ c, A(a, c) · B(b, c)`. -/
theorem matmul_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (F := Ideal) (DotDims.transposedRhs m k n) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  -- the contraction index that stands for c carries c on its one axis
  have hc := contrEquiv1_symm_val (DotDims.transposedRhs m k n) k rfl rfl c
  -- left operand: row a of the output, column c
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => exact ((DotDims.transposedRhs m k n).lhsIdx_val_of_single rfl (ix2 a b) _).trans hc
  -- right operand: ITS row is the output's column b, its column the contracted c
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => exact ((DotDims.transposedRhs m k n).rhsIdx_val_of_single rfl (ix2 a b) _).trans hc
  rw [hl, hr]

/-- The same for any record that IS the transposed-right one (a printed record of the same six lists differs
    from it only in its well-formedness proof). -/
theorem matmul_zero_apply_of_eq {m k n : Nat} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    matmul (F := Ideal) d prec A B (constant ⟨2, ![m, n]⟩ .f32 0x00000000#32) (ix2 a b)
      = ∑ c : Fin k, A (ix2 a c) * B (ix2 b c) := by
  subst hd; exact matmul_zero_apply prec A B a b

end MatmulTransposedRhs

end
-- ==== Proof.KernelValue.lean ====
/-
  THE KERNEL'S RESULT at the ideal values. The grid is (batch element b, sequence tile s): 4 × 8 points. At a point the
  pipeline stages rows s·256 … s·256 + 255 of x[b] and, through the prefetched table, the [16, 4096] slab of B and of Aᵀ
  for the adapter the table names for b; the body multiplies the x block by the B slab transposed (contracting the 4096
  features), the result by the Aᵀ slab (contracting the 16 ranks), and stores the [256, 4096] product as the output
  block (b, s). The changes of float format in between are the identity at the ideal values, the host's copy of B is B
  and its copy of Aᵀ is A with two axes swapped. So block (b, s) of the result is block (b, s) of ONE function of the
  argument arrays, the blocks tile the [4, 2048, 4096] result, and the result array ends at that function: `Lora.lora`
  of the launch arrays once the table's word min 7 (max 0 id) is min id 7, which it is on non-negative words.
-/
import proofs.«431242_j54623394070735_3_alg».proof.Defs
import proofs.«431242_j54623394070735_3_alg».proof.Proof.Gen.KernelIdeal.Frame
import proofs.«431242_j54623394070735_3_alg».proof.Proof.TableIdeal
import proofs.«431242_j54623394070735_3_alg».proof.Proof.LoraSpec
import proofs.«431242_j54623394070735_3_alg».proof.Proof.LibPlainMatmul
import proofs.«431242_j54623394070735_3_alg».proof.Proof.LibMatmulTransposedRhs
import Idealize.ShloMosaic.Lib.ValueLayout
import Idealize.ShloMosaic.Lib.Pipeline.Value
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)
open Cert.Lora

variable (m : (ℓ : Loc nD τ sig) → Buf (Elt Ideal) ℓ) (ρ : Dev nD → PrngReg)

/-! ## The arrays the region finds -/

/-- The launch arrays at their literal types. -/
abbrev xs (c : Dev nD) : FVec Ideal S4x2048x4096 .f32 := m ((c : Thread nD τ).loc main_arg0)
abbrev As (c : Dev nD) : FVec Ideal S8x4096x16 .f32 := m ((c : Thread nD τ).loc main_arg1)
abbrev Bs (c : Dev nD) : FVec Ideal S8x16x4096 .f32 := m ((c : Thread nD τ).loc main_arg2)

/-- The host's bf16 copy of B (window 1's array). -/
theorem V_v3 (c : Dev nD) : (V m c main_v3 : FVec Ideal S8x16x4096 .bf16) = truncf .bf16 (Bs m c) bitsLt_bf16_f32 := by
  dsimp only [V]
  simp only [hostOps0, hostOps0_1, hostOps0_2, List.flatten_cons, List.flatten_nil, List.append_nil, List.cons_append,
    List.nil_append]
  after_results

/-- The host's bf16 copy of A with its last two axes swapped (window 2's array). -/
theorem V_v2 (c : Dev nD) : (V m c main_v2 : FVec Ideal S8x16x4096 .bf16)
    = truncf .bf16 (transpose S8x16x4096 [0, 2, 1] (As m c) transposes_S8x4096x16_S8x16x4096_0_2_1) bitsLt_bf16_f32 := by
  dsimp only [V]
  simp only [hostOps0, hostOps0_1, hostOps0_2, List.flatten_cons, List.flatten_nil, List.append_nil, List.cons_append,
    List.nil_append]
  after_results

/-- At the ideal values the copies ARE the arrays: entry (a, r, i) of B, entry (a, o, r) of A at (a, r, o). -/
theorem V_v3_apply (c : Dev nD) (a : Fin 8) (r : Fin 16) (i : Fin 4096) :
    (V m c main_v3 : FVec Ideal S8x16x4096 .bf16) (ix3 a r i) = Bs m c (ix3 a r i) := by
  rw [V_v3]; rfl
theorem V_v2_apply (c : Dev nD) (a : Fin 8) (r : Fin 16) (o : Fin 4096) :
    (V m c main_v2 : FVec Ideal S8x16x4096 .bf16) (ix3 a r o) = As m c (ix3 a o r) := by
  rw [V_v2]
  exact transpose_ix3_021_apply (As m c) _ a r o

/-! ## The grid and the index maps -/

/-- The pipeline's side condition, which holds at every launch memory. -/
abbrev hO : Ok m := Cert.KernelIdeal.Table.ok m

/-- Point t's batch element and sequence tile. -/
abbrev bOf (t : Fin grid0.N) : Fin 4 := grid0.coords t 0
abbrev sOf (t : Fin grid0.N) : Fin 8 := grid0.coords t 1

/-- The x and out windows take block (b, s, 0) at point (b, s). -/
theorem ix_x : ∀ t : Fin grid0.N, cc0_transform_0 (grid0.coords t) = ![(bOf t).val, (sOf t).val, 0] := by decide +kernel
theorem ix_o : ∀ t : Fin grid0.N, cc0_transform_3 (grid0.coords t) = ![(bOf t).val, (sOf t).val, 0] := by decide +kernel

/-! ## The blocks the pipeline stages -/

/-- The three input blocks at point t, at their literal types. -/
abbrev xblk (c : Dev nD) (t : Fin grid0.N) : Vec Ideal S1x256x4096 .f32 := iblk m (hO m) c 0 t
abbrev bblk (c : Dev nD) (t : Fin grid0.N) : Vec Ideal S1x16x4096 .bf16 := iblk m (hO m) c 1 t
abbrev ablk (c : Dev nD) (t : Fin grid0.N) : Vec Ideal S1x16x4096 .bf16 := iblk m (hO m) c 2 t

/-- Window 0's block at point (b, s): rows s·256 … s·256 + 255 of x[b]. -/
theorem xblk_apply (c : Dev nD) (t : Fin grid0.N) (p : Fin 256) (i : Fin 4096) (k : S4x2048x4096.Idx)
    (hk0 : (k 0).val = (bOf t).val) (hk1 : (k 1).val = (sOf t).val * 256 + p.val) (hk2 : (k 2).val = i.val) :
    xblk m c t (ix3 (0 : Fin 1) p i) = xs m c k := by
  show V m c main_arg0 ((((cfgM m (hO m)).win 0).blk t).view.emb (ix3 (0 : Fin 1) p i)) = xs m c k
  refine (congrFun (V_main_arg0 m c) _).trans (congrArg (xs m c) (funext fun a => Fin.ext ?_))
  have hi := ix_x t
  match a with
  | ⟨0, _⟩ =>
    show cc0_transform_0 (grid0.coords t) 0 * 1 + 1 * 0 = (k 0).val
    rw [hi, hk0]; show (bOf t).val * 1 + 1 * 0 = _; omega
  | ⟨1, _⟩ =>
    show cc0_transform_0 (grid0.coords t) 1 * 256 + 1 * p.val = (k 1).val
    rw [hi, hk1]; show (sOf t).val * 256 + 1 * p.val = _; omega
  | ⟨2, _⟩ =>
    show cc0_transform_0 (grid0.coords t) 2 * 4096 + 1 * i.val = (k 2).val
    rw [hi, hk2]; show 0 * 4096 + 1 * i.val = _; omega

/-- The index maps of the two adapter windows read the table at the point's batch element. -/
theorem word_ix (i : grid0.Coords) (inb : ∀ a, (![(Scalar.indexCast (BitVec.ofNat 32 (i 0).val)).toNat] : Fin 1 → Nat) a + S1.size a ≤ S4.size a)
    (h1 : 0 < S1.numel) :
    (Rect.unit (s := S4) ![(Scalar.indexCast (BitVec.ofNat 32 (i 0).val)).toNat] S1.size inb).emb (Shape.Idx.first h1)
      = (ix1 (⟨(i 0).val, (i 0).isLt⟩ : Fin 4) : S4.Idx) := by
  funext a
  apply Fin.ext
  fin_cases a
  show (Scalar.indexCast (BitVec.ofNat 32 (i 0).val)).toNat + 1 * (Shape.Idx.first h1 (0 : Fin 1)).val = (i 0).val
  have h0 : (Shape.Idx.first h1 (0 : Fin 1)).val = 0 := by
    have := (Shape.Idx.first h1 (0 : Fin 1)).isLt
    have e : S1.size (0 : Fin 1) = 1 := by decide
    omega
  have h4 : (i 0).val < 4 := (i 0).isLt
  have hw : (Scalar.indexCast (BitVec.ofNat 32 (i 0).val)).toNat = (i 0).val := by
    show (BitVec.ofNat 32 (i 0).val).toNat = _
    rw [BitVec.toNat_ofNat]; omega
  omega

/-- The adapter the kernel's table names for batch element b. -/
def kad (b : Fin 4) : Fin 8 := ⟨(tbl m 0 (ix1 b)).toNat, Nat.lt_succ_of_le (Cert.KernelIdeal.Table.tbl_le m _)⟩

/-- Both adapter windows take block (table word of b, 0, 0) at point (b, s). -/
theorem ix_b (t : Fin grid0.N) : cc0_transform_1 k0_off1_inb numel1_S1 (tbl m) (grid0.coords t) = ![(kad m (bOf t)).val, 0, 0] := by
  exact congrArg (fun j : S4.Idx => (![(tbl m 0 j).toNat, 0, 0] : Fin 3 → Nat))
    (word_ix (grid0.coords t) (k0_off1_inb (grid0.coords t)) (numel1_S1.symm ▸ Nat.one_pos))
theorem ix_a (t : Fin grid0.N) : cc0_transform_2 k0_off1_inb numel1_S1 (tbl m) (grid0.coords t) = ![(kad m (bOf t)).val, 0, 0] := by
  exact congrArg (fun j : S4.Idx => (![(tbl m 0 j).toNat, 0, 0] : Fin 3 → Nat))
    (word_ix (grid0.coords t) (k0_off1_inb (grid0.coords t)) (numel1_S1.symm ▸ Nat.one_pos))

/-- Window 1's block at point (b, s): the whole [16, 4096] slab of B for the table's adapter. -/
theorem bblk_apply (c : Dev nD) (t : Fin grid0.N) (r : Fin 16) (q : Fin 4096) :
    bblk m c t (ix3 (0 : Fin 1) r q) = Bs m c (ix3 (kad m (bOf t)) r q) := by
  show (V m c main_v3 : FVec Ideal S8x16x4096 .bf16) ((((cfgM m (hO m)).win 1).blk t).view.emb (ix3 (0 : Fin 1) r q)) = _
  refine (congrArg (V m c main_v3 : FVec Ideal S8x16x4096 .bf16) (funext fun a => Fin.ext ?_)).trans
    (V_v3_apply m c (kad m (bOf t)) r q)
  have hi := ix_b m t
  match a with
  | ⟨0, _⟩ =>
    show cc0_transform_1 k0_off1_inb numel1_S1 (tbl m) (grid0.coords t) 0 * 1 + 1 * 0 = (kad m (bOf t)).val
    rw [hi]; show (kad m (bOf t)).val * 1 + 1 * 0 = _; omega
  | ⟨1, _⟩ =>
    show cc0_transform_1 k0_off1_inb numel1_S1 (tbl m) (grid0.coords t) 1 * 16 + 1 * r.val = r.val
    rw [hi]; show 0 * 16 + 1 * r.val = _; omega
  | ⟨2, _⟩ =>
    show cc0_transform_1 k0_off1_inb numel1_S1 (tbl m) (grid0.coords t) 2 * 4096 + 1 * q.val = q.val
    rw [hi]; show 0 * 4096 + 1 * q.val = _; omega

/-- Window 2's block at point (b, s): the same adapter's slab of A, its two axes swapped. -/
theorem ablk_apply (c : Dev nD) (t : Fin grid0.N) (r : Fin 16) (q : Fin 4096) :
    ablk m c t (ix3 (0 : Fin 1) r q) = As m c (ix3 (kad m (bOf t)) q r) := by
  show (V m c main_v2 : FVec Ideal S8x16x4096 .bf16) ((((cfgM m (hO m)).win 2).blk t).view.emb (ix3 (0 : Fin 1) r q)) = _
  refine (congrArg (V m c main_v2 : FVec Ideal S8x16x4096 .bf16) (funext fun a => Fin.ext ?_)).trans
    (V_v2_apply m c (kad m (bOf t)) r q)
  have hi := ix_a m t
  match a with
  | ⟨0, _⟩ =>
    show cc0_transform_2 k0_off1_inb numel1_S1 (tbl m) (grid0.coords t) 0 * 1 + 1 * 0 = (kad m (bOf t)).val
    rw [hi]; show (kad m (bOf t)).val * 1 + 1 * 0 = _; omega
  | ⟨1, _⟩ =>
    show cc0_transform_2 k0_off1_inb numel1_S1 (tbl m) (grid0.coords t) 1 * 16 + 1 * r.val = r.val
    rw [hi]; show 0 * 16 + 1 * r.val = _; omega
  | ⟨2, _⟩ =>
    show cc0_transform_2 k0_off1_inb numel1_S1 (tbl m) (grid0.coords t) 2 * 4096 + 1 * q.val = q.val
    rw [hi]; show 0 * 4096 + 1 * q.val = _; omega

/-! ## What point t leaves in the output block -/

theorem hz : (![0, 0, 0] : Fin 3 → Nat) = fun _ => 0 := funext fun a => by fin_cases a <;> rfl

/-- The body's one store covers the output block: the block is the store's payload of the three loaded blocks. -/
theorem out_eq (c : Dev nD) (i : grid0.Coords) (arg3 : Memref sig .tc .vmem S1x256x4096 .f32) (harg3 : arg3.IsWhole)
    (arg4 : Memref sig .tc .vmem S1x16x4096 .bf16) (harg4 : arg4.IsWhole) (arg5 : Memref sig .tc .vmem S1x16x4096 .bf16) (harg5 : arg5.IsWhole)
    (arg6 : Memref sig .tc .vmem S1x256x4096 .f32) (harg6 : arg6.IsWhole)
    (x0 : Vec Ideal S1x256x4096 .f32) (x1 : Vec Ideal S1x16x4096 .bf16) (x2 : Vec Ideal S1x16x4096 .bf16) (xt0 : TbBuf0 (F := Ideal) c tbM0_0) :
    out0_A_3 c i arg3 harg3 arg4 harg4 arg5 harg5 arg6 harg6 x0 x1 x2 xt0 = k0_pay1 x0 x1 x2 := by
  unfold out0_A_3
  rw [View.read_writes_eq_canon _ _ _ (cover0_A_3 c i arg3 harg3 arg4 harg4 arg5 harg5 arg6 harg6 x0 x1 x2 xt0)]
  unfold kernelRun0_A
  dsimp only
  rw [View.canon_unit_zero hz]
  simp only [View.readAt_eq_ld, harg3.read_unread, harg4.read_unread, harg5.read_unread,
    View.ld_unit_zero (S := S1x256x4096) hz, View.ld_unit_zero (S := S1x16x4096) hz]

/-- The payload at row p, column o: the x block times the B slab transposed, entry (p, r), then times the Aᵀ slab,
    summed over the rank r. The casts to bf16 between the steps are the identity at the ideal values. -/
theorem pay_apply (x0 : Vec Ideal S1x256x4096 .f32) (x1 x2 : Vec Ideal S1x16x4096 .bf16) (p : Fin 256) (o : Fin 4096) :
    k0_pay1 (F := Ideal) x0 x1 x2 (ix3 (0 : Fin 1) p o)
      = ∑ r : Fin 16, (∑ i : Fin 4096, x0 (ix3 (0 : Fin 1) p i) * x1 (ix3 (0 : Fin 1) r i)) * x2 (ix3 (0 : Fin 1) r o) := by
  unfold k0_pay1
  refine (shapeCast_ab_1ab_apply _ _ (0 : Fin 1) p o).trans ?_
  refine (PlainMatmul.matmul_zero_apply_of_eq dot_S256x16_S16x4096_S256x4096_1_0_0_1_n_n rfl none _ _ p o).trans ?_
  refine Finset.sum_congr rfl fun r _ => ?_
  -- the right factor: Aᵀ's slab, the unit axis dropped
  have e2 : shapeCast S16x4096 x2 shapeCasts_S1x16x4096_S16x4096 (ix2 r o) = x2 (ix3 (0 : Fin 1) r o) :=
    shapeCast_1ab_ab_apply x2 _ r o
  -- the left factor: the first product's entry (p, r)
  have e1 : matmul (F := Ideal) (φ₁ := .bf16) (φ₂ := .bf16) dot_S256x4096_S16x4096_S256x16_1_1_0_0_n_n none
        (truncf .bf16 (shapeCast S256x4096 x0 shapeCasts_S1x256x4096_S256x4096) bitsLt_bf16_f32)
        (shapeCast S16x4096 x1 shapeCasts_S1x16x4096_S16x4096) (constant S256x16 .f32 0x00000000#32) (ix2 p r)
      = ∑ i : Fin 4096, x0 (ix3 (0 : Fin 1) p i) * x1 (ix3 (0 : Fin 1) r i) := by
    refine (MatmulTransposedRhs.matmul_zero_apply_of_eq dot_S256x4096_S16x4096_S256x16_1_1_0_0_n_n rfl none _ _ p r).trans ?_
    refine Finset.sum_congr rfl fun i _ => ?_
    show shapeCast S256x4096 x0 shapeCasts_S1x256x4096_S256x4096 (ix2 p i)
        * shapeCast S16x4096 x1 shapeCasts_S1x16x4096_S16x4096 (ix2 r i) = _
    exact congrArg₂ (· * ·) (shapeCast_1ab_ab_apply x0 _ p i) (shapeCast_1ab_ab_apply x1 _ r i)
  show matmul (F := Ideal) (φ₁ := .bf16) (φ₂ := .bf16) dot_S256x4096_S16x4096_S256x16_1_1_0_0_n_n none _ _ _ (ix2 p r) * _ = _
  exact congrArg₂ (· * ·) e1 e2

/-- Row n of the sequence that row p of tile s is. -/
def rowOf (s : Fin 8) (p : Fin 256) : Fin 2048 := ⟨s.val * 256 + p.val, by have := s.isLt; have := p.isLt; omega⟩

/-- THE OUTPUT BLOCK at point (b, s), entry (p, o): the low-rank update of row s·256 + p of x[b] with the
    adapter the table names for b. -/
theorem outs_apply (c : Dev nD) (t : Fin grid0.N) (p : Fin 256) (o : Fin 4096) :
    (outsAt0 m (hO m) c t : Vec Ideal S1x256x4096 .f32) (ix3 (0 : Fin 1) p o)
      = ∑ r : Fin 16, down (xs m c) (Bs m c) (kad m (bOf t)) (bOf t) (rowOf (sOf t) p) r
          * As m c (ix3 (kad m (bOf t)) o r) := by
  refine (congrFun (out_eq c (grid0.coords t) (ms0_0 m (hO m) t) (hs0_0 m (hO m) t) (ms0_1 m (hO m) t) (hs0_1 m (hO m) t)
    (ms0_2 m (hO m) t) (hs0_2 m (hO m) t) (ms0_3 m (hO m) t) (hs0_3 m (hO m) t)
    (xblk m c t) (bblk m c t) (ablk m c t) (tbl m 0)) (ix3 (0 : Fin 1) p o)).trans ?_
  refine (pay_apply (xblk m c t) (bblk m c t) (ablk m c t) p o).trans ?_
  refine Finset.sum_congr rfl fun r _ => ?_
  rw [ablk_apply]
  refine congrArg (· * As m c (ix3 (kad m (bOf t)) o r)) ?_
  unfold down
  refine Finset.sum_congr rfl fun i _ => ?_
  rw [bblk_apply, xblk_apply m c t p i (ix3 (bOf t) (rowOf (sOf t) p) i) rfl rfl rfl]

/-! ## The array the kernel leaves -/

/-- The kernel's result with the adapters its table names: entry (b, n, o). -/
def kres (c : Dev nD) : FVec Ideal S4x2048x4096 .f32 := fun j =>
  ∑ r : Fin 16, down (xs m c) (Bs m c) (kad m (j 0)) (j 0) (j 1) r * As m c (ix3 (kad m (j 0)) (j 2) r)

/-- Point (b, s) writes back block (b, s, 0) of `kres`: rows s·256 … s·256 + 255 of batch element b. -/
theorem flushed_eq (c : Dev nD) (t : Fin (cfgM m (hO m)).N) (_ : ((cfgM m (hO m)).win 3).flush t = true) :
    (dats m (hO m) 0 c).flushed 3 t = (((cfgM m (hO m)).win 3).blk t).view.read (Elt Ideal) (kres m c) := by
  show ((cfgM m (hO m)).win 3).cut (grid0.coords t) ((dats m (hO m) 0 c).after 3 t) = _
  rw [after0_3]
  show (outsAt0 m (hO m) c t : Vec Ideal S1x256x4096 .f32)
      = fun y : S1x256x4096.Idx => kres m c ((((cfgM m (hO m)).win 3).blk t).view.emb y)
  funext y
  have h0 : (y 0).val < 1 := (y 0).isLt
  have hy : (y : S1x256x4096.Idx) = ix3 (0 : Fin 1) (y 1) (y 2) := funext fun a => by
    match a with
    | ⟨0, _⟩ => exact Fin.ext (by show (y 0).val = 0; omega)
    | ⟨1, _⟩ => rfl
    | ⟨2, _⟩ => rfl
  refine (congrArg (outsAt0 m (hO m) c t : Vec Ideal S1x256x4096 .f32) hy).trans ?_
  refine (outs_apply m c t (y 1) (y 2)).trans ?_
  have hj : (((cfgM m (hO m)).win 3).blk t).view.emb y = (ix3 (bOf t) (rowOf (sOf t) (y 1)) (y 2) : S4x2048x4096.Idx) :=
    funext fun a => Fin.ext (by
      have hi := ix_o t
      match a with
      | ⟨0, _⟩ =>
        show cc0_transform_3 (grid0.coords t) 0 * 1 + 1 * (y 0).val = (bOf t).val
        rw [hi]; show (bOf t).val * 1 + 1 * (y 0).val = _; omega
      | ⟨1, _⟩ =>
        show cc0_transform_3 (grid0.coords t) 1 * 256 + 1 * (y 1).val = (sOf t).val * 256 + (y 1).val
        rw [hi]; show (sOf t).val * 256 + 1 * (y 1).val = _; omega
      | ⟨2, _⟩ =>
        show cc0_transform_3 (grid0.coords t) 2 * 4096 + 1 * (y 2).val = (y 2).val
        rw [hi]; show 0 * 4096 + 1 * (y 2).val = _; omega)
  exact (congrArg (kres m c) hj).symm

/-- Every (batch element, sequence tile) is a grid point. -/
theorem pts : ∀ (b : Fin 4) (s : Fin 8), ∃ t : Fin grid0.N, bOf t = b ∧ sOf t = s := by decide +kernel

/-- The output's blocks tile the array: entry (b, n, o) lies in the block of point (b, n / 256). -/
theorem cover (c : Dev nD) (i : S4x2048x4096.Idx) :
    ∃ t : Fin (cfgM m (hO m)).N, ((cfgM m (hO m)).win 3).flush t = true ∧ i ∈ (((cfgM m (hO m)).win 3).blk t).view.set := by
  have h1 : (i 1).val < 2048 := (i 1).isLt
  have h2 : (i 2).val < 4096 := (i 2).isLt
  obtain ⟨t, hb, hs⟩ := pts (i 0) ⟨(i 1).val / 256, by omega⟩
  refine ⟨t, flush0_3 (adm m (hO m)) t, ?_⟩
  show i ∈ ((View.whole main_v4).slice ((win0 (adm m (hO m)) 3).rect t)).set
  rw [View.set_slice_whole, Rect.mem_set_unit]
  intro a
  have hi := ix_o t
  have hb' : (bOf t).val = (i 0).val := congrArg Fin.val hb
  have hs' : (sOf t).val = (i 1).val / 256 := congrArg Fin.val hs
  match a with
  | ⟨0, _⟩ =>
    show cc0_transform_3 (grid0.coords t) 0 * 1 ≤ (i 0).val ∧ (i 0).val < cc0_transform_3 (grid0.coords t) 0 * 1 + 1
    rw [hi]; show (bOf t).val * 1 ≤ (i 0).val ∧ (i 0).val < (bOf t).val * 1 + 1; omega
  | ⟨1, _⟩ =>
    show cc0_transform_3 (grid0.coords t) 1 * 256 ≤ (i 1).val ∧ (i 1).val < cc0_transform_3 (grid0.coords t) 1 * 256 + 256
    rw [hi]; show (sOf t).val * 256 ≤ (i 1).val ∧ (i 1).val < (sOf t).val * 256 + 256; omega
  | ⟨2, _⟩ =>
    show cc0_transform_3 (grid0.coords t) 2 * 4096 ≤ (i 2).val ∧ (i 2).val < cc0_transform_3 (grid0.coords t) 2 * 4096 + 4096
    rw [hi]; show 0 * 4096 ≤ (i 2).val ∧ (i 2).val < 0 * 4096 + 4096; omega

/-- So the result array ends holding `kres`. -/
theorem final (c : Dev nD) : (dats m (hO m) 0 c).arrAt 3 (cfgM m (hO m)).N = kres m c :=
  (dats m (hO m) 0 c).arrAt_eq_of_cover 3 (kres m c) (flushed_eq m c) (cover m c)

/-! ## Under the precondition the table's adapter is the specification's -/

/-- On non-negative words the table names `Lora.adapter`. -/
theorem kad_eq (hn : ∀ b : Fin 4, (Cert.KernelIdeal.Table.ids m (ix1 b)).toNat < 2 ^ 31) (b : Fin 4) :
    kad m b = adapter (Cert.KernelIdeal.Table.ids m) b :=
  Fin.ext (by
    show (tbl m 0 (ix1 b)).toNat = min (Cert.KernelIdeal.Table.ids m (ix1 b)).toNat 7
    rw [Cert.KernelIdeal.Table.tbl_apply]
    exact AdapterWord.clamp_of_nonneg _ (hn b))

/-- and the kernel's result is `lora` of the launch arrays. -/
theorem kres_eq (hn : ∀ b : Fin 4, (Cert.KernelIdeal.Table.ids m (ix1 b)).toNat < 2 ^ 31) (c : Dev nD) :
    kres m c = lora (xs m c) (As m c) (Bs m c) (Cert.KernelIdeal.Table.ids m) := by
  have e : kad m = adapter (Cert.KernelIdeal.Table.ids m) := funext (kad_eq m hn)
  unfold kres lora
  rw [e]

/-- THE KERNEL'S RUN with its result named: every weakly fair execution ends with the result array at `lora` of
    the launch arrays and the arguments unchanged. -/
theorem run (hn : ∀ b : Fin 4, (Cert.KernelIdeal.Table.ids m (ix1 b)).toNat < 2 ^ 31) :
    θ_run defs (onTc (τ := τ) (main (F := Ideal))) ⟨m, fun _ => 0, ρ⟩ fun r => ∀ c : Dev nD,
      r.2.mem ((c.tc : Thread nD τ).loc main_v4) = lora (xs m c) (As m c) (Bs m c) (Cert.KernelIdeal.Table.ids m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have H := run_main m ρ (hO m)
  refine (θ_run defs _ _).mono (fun _ h c => ?_) H
  exact ⟨(((h c).1 3).trans (final m c)).trans (kres_eq m hn c),
    ((h c).1 0).trans (((dats m (hO m) 0 c).arrAt_in 0 rfl _).trans ((A_eq m (hO m) c 0).trans (V_main_arg0 m c))),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c)⟩

end Cert.KernelIdeal.KValue

end
-- ==== Proof.RefValue.lean ====
/-
  The reference at the ideal values is `Lora.lora`. Its two gathers select, for batch element b, the slab of
  B and of A at the start word of b — the word of `adapter_ids`, wrapped by 8 when negative, then read signed
  and held into 0 … 7 by the gather itself; on a non-negative word that is `min(word, 7)`. The two `dot_general`s
  then sum over the feature axis (4096) and over the rank axis (16), and the last multiply is by the literal 1.
-/
import proofs.«431242_j54623394070735_3_alg».proof.Proof.Gen.ReferenceIdeal.Run
import proofs.«431242_j54623394070735_3_alg».proof.Proof.Gen.ReferenceIdeal.Read
import proofs.«431242_j54623394070735_3_alg».proof.Proof.LoraSpec
import proofs.«431242_j54623394070735_3_alg».proof.Proof.AdapterWord

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Lora

/-- The gathers' dimension numbers: B's slab [1, 16, 4096] and A's slab [1, 4096, 16] at a start on axis 0. -/
abbrev gB := gather_S8x16x4096_S4x1_S4x16x4096_12_0_n_n_0_1_1164096
abbrev gA := gather_S8x4096x16_S4x1_S4x4096x16_12_0_n_n_0_1_1409616

/-- Where the [4, 1] start-index array holds batch element b's word. -/
abbrev startIx (b : Fin 4) : S4x1.Idx := ix2 b (0 : Fin 1)

/-- A start word read signed and held into 0 … 7: the adapter the gather takes. -/
def held (w : BitVec 32) : Fin 8 := ⟨min w.toInt.toNat 7, Nat.lt_succ_of_le (Nat.min_le_right _ _)⟩

/-! ## The two gathers read at an index -/

/-- Axis 0 of the operand is collapsed and carries the start: the start word held into 0 … 7. -/
theorem gB_axis0 (j : S4x16x4096.Idx) (idx : IVec S4x1 32) :
    gB.start j idx 0 + gB.batchCoord j 0 + gB.offCoord j 0
      = min (idx (gB.siIdx j ⟨0, by decide⟩)).toInt.toNat 7 := by
  rw [gB.batchCoord_eq_zero _ _ List.not_mem_nil,
    gB.offCoord_eq_zero _ _ (fun h => ((gB.mem_sKept _).mp h).1 (List.mem_singleton.mpr rfl))]
  unfold GatherDims.start
  rw [dif_pos (show (0 : Fin S8x16x4096.rank) ∈ gB.startIndexMap from List.mem_singleton.mpr rfl)]
  rfl
/-- Axes 1 and 2 are the slab's own: no start, the result's coordinate. -/
theorem gB_axis1 (j : S4x16x4096.Idx) (idx : IVec S4x1 32) :
    gB.start j idx 1 + gB.batchCoord j 1 + gB.offCoord j 1 = (j 1).val := by
  rw [gB.batchCoord_eq_zero _ _ List.not_mem_nil]
  have hs : gB.start j idx 1 = 0 := by unfold GatherDims.start; rw [dif_neg (by decide)]
  have hk : (1 : Fin S8x16x4096.rank) ∈ gB.sKept := (gB.mem_sKept _).mpr ⟨by decide, List.not_mem_nil⟩
  rw [hs]
  unfold GatherDims.offCoord
  rw [dif_pos hk]
  simp only [Nat.zero_add, Nat.add_zero]
  exact congrArg (fun a => (j a).val) (by decide +revert)
theorem gB_axis2 (j : S4x16x4096.Idx) (idx : IVec S4x1 32) :
    gB.start j idx 2 + gB.batchCoord j 2 + gB.offCoord j 2 = (j 2).val := by
  rw [gB.batchCoord_eq_zero _ _ List.not_mem_nil]
  have hs : gB.start j idx 2 = 0 := by unfold GatherDims.start; rw [dif_neg (by decide)]
  have hk : (2 : Fin S8x16x4096.rank) ∈ gB.sKept := (gB.mem_sKept _).mpr ⟨by decide, List.not_mem_nil⟩
  rw [hs]
  unfold GatherDims.offCoord
  rw [dif_pos hk]
  simp only [Nat.zero_add, Nat.add_zero]
  exact congrArg (fun a => (j a).val) (by decide +revert)
/-- The start-index array is read at batch element b's entry, whatever the slab coordinates. -/
theorem gB_siIdx (b : Fin 4) (p : Fin 16) (q : Fin 4096) : gB.siIdx (ix3 b p q) ⟨0, by decide⟩ = startIx b := by
  funext k; refine Fin.ext ?_
  match k with
  | ⟨0, _⟩ => rfl
  | ⟨1, _⟩ => rfl
/-- THE GATHER READ AT (b, p, q): the operand at (held start of b, p, q). -/
theorem gB_apply {α : Type} (x : S8x16x4096.Idx → α) (idx : IVec S4x1 32) (b : Fin 4) (p : Fin 16) (q : Fin 4096) :
    Host.gather gB x idx (ix3 b p q) = x (ix3 (held (idx (startIx b))) p q) := by
  unfold Host.gather
  refine congrArg x (funext fun a => Fin.ext ?_)
  match a with
  | ⟨0, _⟩ => exact (gB_axis0 _ idx).trans (by rw [gB_siIdx]; rfl)
  | ⟨1, _⟩ => exact gB_axis1 _ idx
  | ⟨2, _⟩ => exact gB_axis2 _ idx

/-- Axis 0 of the operand is collapsed and carries the start: the start word held into 0 … 7. -/
theorem gA_axis0 (j : S4x4096x16.Idx) (idx : IVec S4x1 32) :
    gA.start j idx 0 + gA.batchCoord j 0 + gA.offCoord j 0
      = min (idx (gA.siIdx j ⟨0, by decide⟩)).toInt.toNat 7 := by
  rw [gA.batchCoord_eq_zero _ _ List.not_mem_nil,
    gA.offCoord_eq_zero _ _ (fun h => ((gA.mem_sKept _).mp h).1 (List.mem_singleton.mpr rfl))]
  unfold GatherDims.start
  rw [dif_pos (show (0 : Fin S8x4096x16.rank) ∈ gA.startIndexMap from List.mem_singleton.mpr rfl)]
  rfl
/-- Axes 1 and 2 are the slab's own: no start, the result's coordinate. -/
theorem gA_axis1 (j : S4x4096x16.Idx) (idx : IVec S4x1 32) :
    gA.start j idx 1 + gA.batchCoord j 1 + gA.offCoord j 1 = (j 1).val := by
  rw [gA.batchCoord_eq_zero _ _ List.not_mem_nil]
  have hs : gA.start j idx 1 = 0 := by unfold GatherDims.start; rw [dif_neg (by decide)]
  have hk : (1 : Fin S8x4096x16.rank) ∈ gA.sKept := (gA.mem_sKept _).mpr ⟨by decide, List.not_mem_nil⟩
  rw [hs]
  unfold GatherDims.offCoord
  rw [dif_pos hk]
  simp only [Nat.zero_add, Nat.add_zero]
  exact congrArg (fun a => (j a).val) (by decide +revert)
theorem gA_axis2 (j : S4x4096x16.Idx) (idx : IVec S4x1 32) :
    gA.start j idx 2 + gA.batchCoord j 2 + gA.offCoord j 2 = (j 2).val := by
  rw [gA.batchCoord_eq_zero _ _ List.not_mem_nil]
  have hs : gA.start j idx 2 = 0 := by unfold GatherDims.start; rw [dif_neg (by decide)]
  have hk : (2 : Fin S8x4096x16.rank) ∈ gA.sKept := (gA.mem_sKept _).mpr ⟨by decide, List.not_mem_nil⟩
  rw [hs]
  unfold GatherDims.offCoord
  rw [dif_pos hk]
  simp only [Nat.zero_add, Nat.add_zero]
  exact congrArg (fun a => (j a).val) (by decide +revert)
/-- The start-index array is read at batch element b's entry, whatever the slab coordinates. -/
theorem gA_siIdx (b : Fin 4) (p : Fin 4096) (q : Fin 16) : gA.siIdx (ix3 b p q) ⟨0, by decide⟩ = startIx b := by
  funext k; refine Fin.ext ?_
  match k with
  | ⟨0, _⟩ => rfl
  | ⟨1, _⟩ => rfl
/-- THE GATHER READ AT (b, p, q): the operand at (held start of b, p, q). -/
theorem gA_apply {α : Type} (x : S8x4096x16.Idx → α) (idx : IVec S4x1 32) (b : Fin 4) (p : Fin 4096) (q : Fin 16) :
    Host.gather gA x idx (ix3 b p q) = x (ix3 (held (idx (startIx b))) p q) := by
  unfold Host.gather
  refine congrArg x (funext fun a => Fin.ext ?_)
  match a with
  | ⟨0, _⟩ => exact (gA_axis0 _ idx).trans (by rw [gA_siIdx]; rfl)
  | ⟨1, _⟩ => exact gA_axis1 _ idx
  | ⟨2, _⟩ => exact gA_axis2 _ idx

/-! ## The start words under the precondition -/

/-- The f32 word 0x3F800000 is the real number one: sign clear, biased exponent 127, no fraction. -/
theorem ofBits_one : Ideal.ofBits .f32 0x3F800000#32 = 1 := by
  unfold Ideal.ofBits Ideal.ieee
  have h1 : ((0x3F800000#32 : BitVec 32).extractLsb' (8 + 23) 1 == 1#1) = false := by decide
  have h2 : ((0x3F800000#32 : BitVec 32).extractLsb' 23 8).toNat = 127 := by decide
  have h3 : ((0x3F800000#32 : BitVec 32).extractLsb' 0 23).toNat = 0 := by decide
  simp only [h1, h2, h3]
  norm_num

/-- The [4, 1] start array at batch element b reads the [4] word array at b. -/
theorem idx5 (b : Fin 4) : idx_main_v5 (startIx b) = ix1 b := funext fun a => Fin.ext (by match a with | ⟨0, _⟩ => rfl)
theorem idx12 (b : Fin 4) : idx_main_v12 (startIx b) = ix1 b := funext fun a => Fin.ext (by match a with | ⟨0, _⟩ => rfl)

/-- B's start for b: the wrap is not taken on a non-negative word, and holding it into 0 … 7 is `Lora.adapter`. -/
theorem startB (x3 : (⟨S4, .i32⟩ : BufTy).Contents (Elt Ideal)) (b : Fin 4) (hn : (x3 (ix1 b)).toNat < 2 ^ 31) :
    held (val_main_v5 (F := Ideal) x3 (startIx b)) = adapter x3 b := by
  rw [val_main_v5_apply, idx5, val_main_v4_apply, val_main_v1_apply, val_main_v3_apply, val_main_v0_apply, val_main_v2_apply,
    val_main_c_apply, val_main_c_0_apply, AdapterWord.wrap_of_nonneg _ hn]
  exact Fin.ext (AdapterWord.start_of_nonneg _ hn)
/-- A's start for b, the same word. -/
theorem startA (x3 : (⟨S4, .i32⟩ : BufTy).Contents (Elt Ideal)) (b : Fin 4) (hn : (x3 (ix1 b)).toNat < 2 ^ 31) :
    held (val_main_v12 (F := Ideal) x3 (startIx b)) = adapter x3 b := by
  rw [val_main_v12_apply, idx12, val_main_v11_apply, val_main_v8_apply, val_main_v10_apply, val_main_v7_apply, val_main_v9_apply,
    val_main_c_1_apply, val_main_c_2_apply, AdapterWord.wrap_of_nonneg _ hn]
  exact Fin.ext (AdapterWord.start_of_nonneg _ hn)

/-! ## The reference's result -/

/-- Where the two `dot_general`s read their operands, in coordinates. -/
theorem lidx15 (b : Fin 4) (n : Fin 2048) (o : Fin 4096) (r : Fin 16) : lidx_main_v15 (ix3 b n o) r = ix3 b n r :=
  funext fun a => Fin.ext (by match a with | ⟨0, _⟩ => rfl | ⟨1, _⟩ => rfl | ⟨2, _⟩ => rfl)
theorem ridx15 (b : Fin 4) (n : Fin 2048) (o : Fin 4096) (r : Fin 16) : ridx_main_v15 (ix3 b n o) r = ix3 b o r :=
  funext fun a => Fin.ext (by match a with | ⟨0, _⟩ => rfl | ⟨1, _⟩ => rfl | ⟨2, _⟩ => rfl)
theorem lidx14 (b : Fin 4) (n : Fin 2048) (r : Fin 16) (i : Fin 4096) : lidx_main_v14 (ix3 b n r) i = ix3 b n i :=
  funext fun a => Fin.ext (by match a with | ⟨0, _⟩ => rfl | ⟨1, _⟩ => rfl | ⟨2, _⟩ => rfl)
theorem ridx14 (b : Fin 4) (n : Fin 2048) (r : Fin 16) (i : Fin 4096) : ridx_main_v14 (ix3 b n r) i = ix3 b r i :=
  funext fun a => Fin.ext (by match a with | ⟨0, _⟩ => rfl | ⟨1, _⟩ => rfl | ⟨2, _⟩ => rfl)

/-- THE REFERENCE IS `lora`, on non-negative adapter words. -/
theorem ref_eq (x0 : (⟨S4x2048x4096, .f32⟩ : BufTy).Contents (Elt Ideal)) (x1 : (⟨S8x4096x16, .f32⟩ : BufTy).Contents (Elt Ideal))
    (x2 : (⟨S8x16x4096, .f32⟩ : BufTy).Contents (Elt Ideal)) (x3 : (⟨S4, .i32⟩ : BufTy).Contents (Elt Ideal))
    (hn : ∀ b : Fin 4, (x3 (ix1 b)).toNat < 2 ^ 31) :
    val_main_v17 (F := Ideal) x0 x1 x2 x3 = lora x0 x1 x2 x3 := by
  funext j
  obtain ⟨b, n, o, rfl⟩ : ∃ (b : Fin 4) (n : Fin 2048) (o : Fin 4096), j = ix3 b n o := ⟨j 0, j 1, j 2, eq_ix3 j⟩
  rw [val_main_v17_apply, val_main_v16_apply, val_main_cst_apply, lora_apply]
  show val_main_v15 (F := Ideal) x0 x1 x2 x3 (ix3 b n o) * Ideal.ofBits .f32 0x3F800000#32 = _
  rw [ofBits_one, mul_one, val_main_v15_apply]
  refine Finset.sum_congr rfl fun r _ => ?_
  rw [lidx15, ridx15, val_main_v14_apply]
  unfold val_main_v13
  rw [gA_apply, startA x3 b (hn b)]
  refine congrArg (· * x1 (ix3 (adapter x3 b) o r)) ?_
  unfold down
  refine Finset.sum_congr rfl fun i _ => ?_
  rw [lidx14, ridx14]
  unfold val_main_v6
  rw [gB_apply, startB x3 b (hn b)]

end Cert.ReferenceIdeal.RefValue

end
-- ==== Proof.PreNonneg.lean ====
/-
  The precondition read: its last conjunct, `all(adapter_ids >= 0)`, says every word of `adapter_ids` is signed
  non-negative, that is, has a clear sign bit. (The three finiteness conjuncts are not used: both programs add and
  multiply the same terms in the same order.)
-/
import proofs.«431242_j54623394070735_3_alg».proof.Defs
import proofs.«431242_j54623394070735_3_alg».proof.Proof.Gen.Pre_finite_inputs
import proofs.«431242_j54623394070735_3_alg».proof.Proof.AdapterWord
import Idealize.ShloMosaic.Lib.ReduceAll
import Idealize.ShloMosaic.Lib.ValueIdx

noncomputable section

namespace Cert.Lora.PreNonneg

open Idealize.ShloMosaic Idealize.ShloMosaic.TcCoe Idealize.SL.Sem Idealize.ShloMosaic.ValueIdx
open Cert.Lora

instance : Subsingleton Cert.Pre_finite_inputs.S_.Idx := ⟨fun a b => funext fun d => d.elim0⟩

/-- Whatever the float arguments, a true precondition has every index word non-negative. -/
theorem nonneg_of_fn {F : FTy → Type} [FloatOps F] [Cert.Pre_finite_inputs.Facts]
    (x0 : FVec F Cert.Pre_finite_inputs.S4x2048x4096 .f32) (x1 : FVec F Cert.Pre_finite_inputs.S8x4096x16 .f32)
    (x2 : FVec F Cert.Pre_finite_inputs.S8x16x4096 .f32) (ids : IVec Cert.Pre_finite_inputs.S4 32)
    (h : Cert.Pre_finite_inputs.fn (F := F) x0 x1 x2 ids = fun _ => 1#1) (b : Fin 4) :
    (ids (ix1 b)).toNat < 2 ^ 31 := by
  have e := congrFun h ix0
  unfold Cert.Pre_finite_inputs.fn at e
  dsimp only at e
  unfold Cert.Pre_finite_inputs.fn_part1 at e
  dsimp only at e
  have e' := ((AdapterWord.andi_eq_one _ _).mp e).2
  have hb := Host.reduce_andi_all _ _ _ _ ix0 e' (ix1 b)
  exact (AdapterWord.nonneg_iff _).mp hb

end Cert.Lora.PreNonneg

end
-- ==== Proof.lean ====
/-
  The certificate of a per-example low-rank adapter layer: for each batch element b the kernel and the reference both
  compute  out[b, n, o] = ∑ r < 16, ( ∑ i < 4096, x[b, n, i] · B[a_b, r, i] ) · A[a_b, o, r]  with the adapter
  a_b = min(adapter_ids[b], 7), over the extended reals and under the precondition that the float inputs are finite and
  every adapter index is non-negative (a negative index the reference wraps by the extent 8 while the kernel holds it
  at 0: the two differ there, so the index's evident domain is part of the precondition; an index above 7 both hold
  at 7).

  * The frames. The kernel reads its adapter slabs through a prefetched table; the table is the host's clamp of
    adapter_ids into 0 … 7, so the pipeline's side condition on it holds at every launch memory (Table modules) and the
    generated frames apply. The reference's frame is its run with the result dropped.
  * preserves: the idealization rewrote nothing.
  * algebraic: the kernel's result array ends at `Lora.lora` of its arguments (KernelValue), the reference's term is the
    same function (RefValue); the precondition enters only through the sign of the index words (PreNonneg).
-/
import proofs.«431242_j54623394070735_3_alg».proof.Defs
import proofs.«431242_j54623394070735_3_alg».proof.Proof.Gen.Kernel
import proofs.«431242_j54623394070735_3_alg».proof.Proof.Gen.Kernel.Skeleton
import proofs.«431242_j54623394070735_3_alg».proof.Proof.Gen.Kernel.Launch
import proofs.«431242_j54623394070735_3_alg».proof.Proof.Gen.Kernel.Points
import proofs.«431242_j54623394070735_3_alg».proof.Proof.Gen.Kernel.Frame
import proofs.«431242_j54623394070735_3_alg».proof.Proof.Gen.KernelIdeal
import proofs.«431242_j54623394070735_3_alg».proof.Proof.Gen.KernelIdeal.Skeleton
import proofs.«431242_j54623394070735_3_alg».proof.Proof.Gen.KernelIdeal.Launch
import proofs.«431242_j54623394070735_3_alg».proof.Proof.Gen.KernelIdeal.Points
import proofs.«431242_j54623394070735_3_alg».proof.Proof.Gen.KernelIdeal.Frame
import proofs.«431242_j54623394070735_3_alg».proof.Proof.Gen.ReferenceIdeal
import proofs.«431242_j54623394070735_3_alg».proof.Proof.Gen.ReferenceIdeal.Run
import proofs.«431242_j54623394070735_3_alg».proof.Proof.Gen.ReferenceIdeal.Read
import proofs.«431242_j54623394070735_3_alg».proof.Proof.Gen.Pre_finite_inputs
import proofs.«431242_j54623394070735_3_alg».proof.Proof.TableBits
import proofs.«431242_j54623394070735_3_alg».proof.Proof.TableIdeal
import proofs.«431242_j54623394070735_3_alg».proof.Proof.KernelValue
import proofs.«431242_j54623394070735_3_alg».proof.Proof.RefValue
import proofs.«431242_j54623394070735_3_alg».proof.Proof.PreNonneg
import Idealize.ShloMosaic.Adequacy
import Idealize.ShloMosaic.Init

noncomputable section

namespace Cert.Proof

open Idealize.ShloMosaic Idealize.ShloMosaic.TcCoe Idealize.SL.Sem Idealize.ShloMosaic.ValueIdx

namespace LoraClaims

theorem frame_k : Cert.frame_Kernel := fun m ρ _ => Cert.Kernel.Gen.frame m ρ (Cert.Kernel.Table.ok m)
theorem frame_ki : Cert.frame_KernelIdeal := fun m ρ _ => Cert.KernelIdeal.Gen.frame m ρ (Cert.KernelIdeal.Table.ok m)
theorem frame_ri : Cert.frame_ReferenceIdeal := fun m ρ _ =>
  (θ_run Cert.ReferenceIdeal.defs _ _).mono (fun _ h c => (h c).2) (Cert.ReferenceIdeal.Value.run (F := Ideal) m ρ)

/-- Both runs end at `Lora.lora` of arrays that agree: the kernel's by its value module, the reference's term by its own,
    each on index words the precondition makes non-negative. -/
theorem algebraic : Cert.algebraic_KernelIdeal_ReferenceIdeal := by
  intro m ρ m' ρ' hpre hagree
  have hn : ∀ b : Fin 4, (Cert.KernelIdeal.Table.ids m (ix1 b)).toNat < 2 ^ 31 :=
    Cert.Lora.PreNonneg.nonneg_of_fn _ _ _ _ (hpre 0)
  refine ⟨_, Cert.KernelIdeal.KValue.run m ρ hn, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v17_eq, (hagree 0).1, (hagree 0).2.1, (hagree 0).2.2.1, (hagree 0).2.2.2]
  exact Cert.ReferenceIdeal.RefValue.ref_eq _ _ _ _ hn

end LoraClaims

theorem claim : Cert.Claim := ⟨Cert.Kernel.Gen.facts, Cert.KernelIdeal.Gen.facts, Cert.ReferenceIdeal.Gen.facts, Cert.Pre_finite_inputs.Gen.facts,
  LoraClaims.frame_k, LoraClaims.frame_ki, LoraClaims.frame_ri, trivial, LoraClaims.algebraic⟩

end Cert.Proof

end
